-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192x2048 .f32) (main_arg5 : FVec F S8192 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4x2048x2048 : Shape := ⟨3, ![4, 2048, 2048]⟩
abbrev S4x2048 : Shape := ⟨2, ![4, 2048]⟩
abbrev S512x2048 : Shape := ⟨2, ![512, 2048]⟩
abbrev S512x256 : Shape := ⟨2, ![512, 256]⟩
abbrev S4x256x2048 : Shape := ⟨3, ![4, 256, 2048]⟩
abbrev S4x256 : Shape := ⟨2, ![4, 256]⟩
abbrev S1024x2048 : Shape := ⟨2, ![1024, 2048]⟩
abbrev S1024 : Shape := ⟨1, ![1024]⟩
abbrev S512x1024 : Shape := ⟨2, ![512, 1024]⟩
abbrev S1x1024 : Shape := ⟨2, ![1, 1024]⟩

abbrev nBuf : Space → Nat
  | .hbm => 17
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S8192, .f32⟩
  | .hbm, ⟨7, _⟩ => ⟨S4096x2048, .bf16⟩
  | .hbm, ⟨8, _⟩ => ⟨S4096x2048, .bf16⟩
  | .hbm, ⟨9, _⟩ => ⟨S8192x2048, .bf16⟩
  | .hbm, ⟨10, _⟩ => ⟨S4x2048x2048, .bf16⟩
  | .hbm, ⟨11, _⟩ => ⟨S8192x2048, .bf16⟩
  | .hbm, ⟨12, _⟩ => ⟨S4x2048x2048, .bf16⟩
  | .hbm, ⟨13, _⟩ => ⟨S8192, .f32⟩
  | .hbm, ⟨14, _⟩ => ⟨S4x2048, .f32⟩
  | .hbm, ⟨15, _⟩ => ⟨S4096x2048, .f32⟩
  | .hbm, ⟨16, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S4x256x2048, .bf16⟩
  | .local _ .vmem, ⟨7, _⟩ => ⟨S4x256x2048, .bf16⟩
  | .local _ .vmem, ⟨8, _⟩ => ⟨S4x256x2048, .bf16⟩
  | .local _ .vmem, ⟨9, _⟩ => ⟨S4x256x2048, .bf16⟩
  | .local _ .vmem, ⟨10, _⟩ => ⟨S4x256, .f32⟩
  | .local _ .vmem, ⟨11, _⟩ => ⟨S4x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S8192x2048_S4x2048x2048 : S8192x2048.ShapeCasts S4x2048x2048
  shapeCasts_S8192_S4x2048 : S8192.ShapeCasts S4x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S4x256x2048 : S4x256x2048.ShapeCasts S4x256x2048
  shapeCasts_S4x256x2048_S1024x2048 : S4x256x2048.ShapeCasts S1024x2048
  inb_S4x256_S4x256_0_0 : ∀ a, (![0, 0] : Fin 2 → Nat) a + S4x256.size a ≤ S4x256.size a
  h_S4x256 : 0 < S4x256.numel
  shapeCasts_S4x256_S4x256 : S4x256.ShapeCasts S4x256
  shapeCasts_S4x256_S1024 : S4x256.ShapeCasts S1024
  shapeCasts_S1024_S1x1024 : S1024.ShapeCasts S1x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  inb_S512x256_S512x256_0_0 : ∀ a, (![0, 0] : Fin 2 → Nat) a + S512x256.size a ≤ S512x256.size a
  h_S512x256 : 0 < S512x256.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x2048.size a ≤ S4x2048x2048.size a
  hwx0_3 : ∀ i : grid0.Coords, EltTy.bits .bf16 = 32 ∨ (Rect.block (s := S4x2048x2048) S4x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x2048.size a ≤ S4x2048x2048.size a
  hwx0_4 : ∀ i : grid0.Coords, EltTy.bits .bf16 = 32 ∨ (Rect.block (s := S4x2048x2048) S4x256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S8192, .f32⟩
  | .hbm, ⟨7, _⟩ => ⟨S2048x8192, .f32⟩
  | .hbm, ⟨8, _⟩ => ⟨S4096x8192, .f32⟩
  | .hbm, ⟨9, _⟩ => ⟨S2048x8192, .f32⟩
  | .hbm, ⟨10, _⟩ => ⟨S4096x8192, .f32⟩
  | .hbm, ⟨11, _⟩ => ⟨S4096x8192, .f32⟩
  | .hbm, ⟨12, _⟩ => ⟨S8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.HostPrefix.lean ====
/-
  What the region finds in the arrays its windows stage, at the ideal values.

  Before the region the program narrows x, hx, w_ih and w_hh to bf16 — the identity at the ideal values —, views each weight
  matrix [8192, 2048] as [4, 2048, 2048] (gate, unit, input), adds the two biases and views the sum [8192] as [4, 2048].
-/
import proofs.«144795_j730144441065_1_alg».proof.Proof.Gen.KernelIdeal.Frame
import Idealize.ShloMosaic.Lib.StableHlo.Run
import Idealize.ShloMosaic.PureOps.Ideal

noncomputable section

namespace Cert.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The narrowed x is x. -/
theorem V_x (c : Dev nD) : (V m c main_v0 : S4096x2048.Idx → EReal) = m ((c : Thread nD τ).loc main_arg0) := by
  dsimp only [Gen.V, Gen.hostOps0]; after_results; rfl

/-- The narrowed hx is hx. -/
theorem V_hx (c : Dev nD) : (V m c main_v1 : S4096x2048.Idx → EReal) = m ((c : Thread nD τ).loc main_arg1) := by
  dsimp only [Gen.V, Gen.hostOps0]; after_results; rfl

/-- The narrowed w_ih viewed as [4, 2048, 2048]. -/
theorem V_wih (c : Dev nD) : (V m c main_v3 : S4x2048x2048.Idx → EReal)
    = shapeCast S4x2048x2048 (m ((c : Thread nD τ).loc main_arg3)) shapeCasts_S8192x2048_S4x2048x2048 := by
  dsimp only [Gen.V, Gen.hostOps0]; after_results; rfl

/-- The narrowed w_hh viewed as [4, 2048, 2048]. -/
theorem V_whh (c : Dev nD) : (V m c main_v5 : S4x2048x2048.Idx → EReal)
    = shapeCast S4x2048x2048 (m ((c : Thread nD τ).loc main_arg4)) shapeCasts_S8192x2048_S4x2048x2048 := by
  dsimp only [Gen.V, Gen.hostOps0]; after_results; rfl

/-- The summed bias viewed as [4, 2048]. -/
theorem V_bias (c : Dev nD) : (V m c main_v7 : S4x2048.Idx → EReal)
    = shapeCast S4x2048 (addf (F := Ideal) (s := S8192) (φ := .f32) (m ((c : Thread nD τ).loc main_arg5))
        (m ((c : Thread nD τ).loc main_arg6)))
        shapeCasts_S8192_S4x2048 := by
  dsimp only [Gen.V, Gen.hostOps0]; after_results; rfl

end Cert.HostPrefix

end
-- ==== Proof.LibMatmulRowsByRows.lean ====
/-
  The product of an m×k matrix with the transpose of an n×k matrix, read at an index, at the ideal values.

  With A of m rows and B of n rows, both of k entries, the product contracting the LAST axis of both has at (r, h) the
  entry Σ_l A(r, l)·B(h, l): row r of A against row h of B. At the ideal values, where no rounding and no order of
  summation is left, both the kernel's product into a zero accumulator and the host's product read exactly that sum.
  The four coordinate lemmas say where each operand is read: the contracted axis takes the contraction's one
  coordinate, each operand's kept axis the matching coordinate of the result.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

variable {m k n : ℕ}

/-- The dimension numbers `[1] × [1]`, kept axes `[0]` and `[0]`, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand's kept axis reads the result's first coordinate. -/
theorem lhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's kept axis reads the result's second coordinate. -/
theorem rhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 0).val = (j 1).val := by
  unfold DotDims.rhsIdx
  rw [dif_neg (show ¬(0 : Fin 2) ∈ (dims w).rhsBatch from List.not_mem_nil),
    dif_pos (show (0 : Fin 2) ∈ (dims w).rhsNonContracting from List.mem_singleton.mpr rfl)]
  rfl

/-- The right operand's contracted axis reads the contraction's coordinate. -/
theorem rhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 1).val = (q ⟨0, Nat.one_pos⟩).val :=
  (dims w).rhsIdx_val_of_single rfl j q

/-- The contraction's sum, re-indexed by the contracted coordinate: the left operand is read along its row `r`, the
    right one along its row `h`. -/
theorem sum_contr (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 h l) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 h l := by
    funext ax; apply Fin.ext
    match ax with
    | ⟨0, _⟩ => exact rhs_0 w _ _
    | ⟨1, _⟩ => exact (rhs_1 w _ _).trans c2
  rw [l2, r2]

/-- A kernel's product of an m×k matrix with the transpose of an n×k matrix into the zero accumulator, read at `(r, h)`. -/
theorem matmul_rows_by_rows_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply]
  exact sum_contr w A B r h

/-- The host's product of an m×k matrix with the transpose of an n×k matrix, read at `(r, h)`. -/
theorem dotGeneral_rows_by_rows_apply {φ₁ φ₂ : FTy}
    (w : DotDims.WF ⟨2, ![m, k]⟩ ⟨2, ![n, k]⟩ ⟨2, ![m, n]⟩ [1] [1] [0] [0] [] [])
    (prec : Option ContractPrecision) (sched : HostSchedule) (A : FVec Ideal ⟨2, ![m, k]⟩ φ₁) (B : FVec Ideal ⟨2, ![n, k]⟩ φ₂)
    (r : Fin m) (h : Fin n) :
    FloatOps.dotGeneral (⟨[1], [1], [0], [0], [], [], w⟩ : DotDims _ _ _) prec sched A B (ix2 r h)
      = ∑ l : Fin k, A (ix2 r l) * B (ix2 h l) := by
  rw [Ideal.dotGeneral_apply]
  exact sum_contr w A B r h

end Idealize.ShloMosaic.MatmulRowsByRows

end
-- ==== Proof.KernelGates.lean ====
/-
  The kernel's [512, 1024] block of pre-activations, read at an entry.

  At one grid point the body holds 512 rows of x and of hx (as [512, 2048] blocks), the rows of w_ih and of w_hh that
  belong to 256 hidden units of each of the four gates (as [4, 256, 2048] blocks) and the matching [4, 256] block of
  the summed bias. It flattens the weight blocks gate-major to [1024, 2048] — row g·256 + jj of the flattened block is row
  (g, jj) of the block — and the bias block to a [1024] row, multiplies x and hx against the transposes of the flattened
  weights into zero accumulators, adds the two products and then the bias row along every batch row. So column g·256 + jj
  of row r of the result is Σ_l x(r,l)·w_ih(g,jj,l) + Σ_l hx(r,l)·w_hh(g,jj,l) + bias(g,jj).
-/
import proofs.«144795_j730144441065_1_alg».proof.Proof.Gen.KernelIdeal.Skeleton
import proofs.«144795_j730144441065_1_alg».proof.Proof.LibMatmulRowsByRows
import Idealize.ShloMosaic.Lib.Pipeline.Value
import Idealize.ShloMosaic.Lib.ValueIdx
import Idealize.ShloMosaic.PureOps.Ideal.Laws

noncomputable section

namespace Cert.KernelGates

open Cert.KernelIdeal Cert.KernelIdeal.Gen Idealize.ShloMosaic Idealize.ShloMosaic.ValueIdx

variable [Cert.KernelIdeal.Facts]

/-- Column of gate `g`, unit `jj` of the block, in the flattened gate-major layout of the block's 4·256 columns. -/
def wcol (g : Fin 4) (jj : Fin 256) : Fin 1024 := ⟨g.val * 256 + jj.val, by have := g.isLt; have := jj.isLt; omega⟩

/-- A [4, 256, 2048] weight block flattened to [1024, 2048]: row g·256 + jj is row (g, jj). -/
theorem flat_weights_apply (B : FVec Ideal S4x256x2048 .bf16) (g : Fin 4) (jj : Fin 256) (l : Fin 2048) :
    shapeCast S1024x2048 (shapeCast S4x256x2048 B shapeCasts_S4x256x2048_S4x256x2048) shapeCasts_S4x256x2048_S1024x2048
        (ix2 (wcol g jj) l) = B (ix3 g jj l) := by
  rw [shapeCast_self]
  refine shapeCast_apply B shapeCasts_S4x256x2048_S1024x2048 (ix2 (wcol g jj) l) (ix3 g jj l) ?_
  rw [Shape.rowMajor_val_three, Shape.rowMajor_val_two]
  show (g.val * 256 + jj.val) * 2048 + l.val = (g.val * 256 + jj.val) * 2048 + l.val
  rfl

/-- One of the body's two products at (r, g·256 + jj): row r of the activations against row (g, jj) of the weight block. -/
theorem product_apply (A : FVec Ideal S512x2048 .bf16) (B : FVec Ideal S4x256x2048 .bf16) (r : Fin 512) (g : Fin 4) (jj : Fin 256) :
    matmul (F := Ideal) dot_S512x2048_S1024x2048_S512x1024_1_1_0_0_n_n none (shapeCast S512x2048 A shapeCasts_S512x2048_S512x2048)
        (shapeCast S1024x2048 (shapeCast S4x256x2048 B shapeCasts_S4x256x2048_S4x256x2048) shapeCasts_S4x256x2048_S1024x2048)
        (constant (F := Ideal) S512x1024 .f32 0x00000000#32) (ix2 r (wcol g jj))
      = (∑ l : Fin 2048, A (ix2 r l) * B (ix3 g jj l) : EReal) := by
  rw [shapeCast_self]
  refine (MatmulRowsByRows.matmul_rows_by_rows_apply (m := 512) (k := 2048) (n := 1024)
    dot_S512x2048_S1024x2048_S512x1024_1_1_0_0_n_n_wf none A _ r (wcol g jj)).trans ?_
  exact Finset.sum_congr rfl fun l _ => congrArg (A (ix2 r l) * ·) (flat_weights_apply B g jj l)

/-- The bias block flattened to a row and repeated along the batch rows, at (r, g·256 + jj). -/
theorem bias_apply (B : FVec Ideal S4x256 .f32) (r : Fin 512) (g : Fin 4) (jj : Fin 256) :
    broadcastTo S512x1024 (shapeCast S1x1024 (shapeCast S1024 (shapeCast S4x256 B shapeCasts_S4x256_S4x256)
        shapeCasts_S4x256_S1024) shapeCasts_S1024_S1x1024) broadcasts_S1x1024_S512x1024 (ix2 r (wcol g jj))
      = B (ix2 g jj) := by
  rw [shapeCast_self]
  refine (broadcastTo_apply _ broadcasts_S1x1024_S512x1024 (ix2 r (wcol g jj)) (ix2 (0 : Fin 1) (wcol g jj)) (fun a => by
    match a with
    | ⟨0, _⟩ => rfl
    | ⟨1, _⟩ => rfl)).trans ?_
  refine (shapeCast_apply _ shapeCasts_S1024_S1x1024 (ix2 (0 : Fin 1) (wcol g jj)) (ix1 (wcol g jj)) (by
    rw [Shape.rowMajor_val_one, Shape.rowMajor_val_two]
    show g.val * 256 + jj.val = 0 * 1024 + (g.val * 256 + jj.val)
    omega)).trans ?_
  refine shapeCast_apply B shapeCasts_S4x256_S1024 (ix1 (wcol g jj)) (ix2 g jj) (by
    rw [Shape.rowMajor_val_one, Shape.rowMajor_val_two]
    show g.val * 256 + jj.val = g.val * 256 + jj.val
    rfl)

/-- The block of pre-activations at (r, g·256 + jj). -/
theorem preact_apply (P0 P1 : FVec Ideal S512x2048 .bf16) (P2 P3 : FVec Ideal S4x256x2048 .bf16) (P4 : FVec Ideal S4x256 .f32)
    (r : Fin 512) (g : Fin 4) (jj : Fin 256) :
    k0_pay1 (F := Ideal) P0 P1 P2 P3 P4 (ix2 r (wcol g jj))
      = ((∑ l : Fin 2048, P0 (ix2 r l) * P2 (ix3 g jj l)) + (∑ l : Fin 2048, P1 (ix2 r l) * P3 (ix3 g jj l))
        + P4 (ix2 g jj) : EReal) := by
  unfold k0_pay1
  exact congrArg₂ (· + ·) (congrArg₂ (· + ·) (product_apply P0 P2 r g jj) (product_apply P1 P3 r g jj))
    (bias_apply P4 r g jj)

end Cert.KernelGates

end
-- ==== Proof.LstmSpec.lean ====
/-
  The LSTM cell as one function of its seven argument arrays, entry by entry, at the ideal values.

  For batch row i and gate column n (0 ≤ n < 8192 = 4·2048) the pre-activation is
      pre i n = Σ_l x(i,l)·w_ih(n,l) + Σ_l hx(i,l)·w_hh(n,l) + (b_ih(n) + b_hh(n)).
  The four gates of hidden unit j sit at the columns g·2048 + j, g = 0 (input), 1 (forget), 2 (candidate), 3 (output).
  With σ the logistic function 1/(1 + e^{-z}) the new cell state and hidden state are
      cy(i,j) = σ(pre i (2048+j))·cx(i,j) + σ(pre i j)·tanh(pre i (4096+j)),
      hy(i,j) = σ(pre i (6144+j))·tanh(cy(i,j)).
  Sums and products are those of the extended reals; nothing here needs the entries to be finite.
-/
import Idealize.ShloMosaic.PureOps.Ideal
import Idealize.ShloMosaic.Lib.ValueIdx

noncomputable section

namespace Cert.LstmSpec

open Idealize.ShloMosaic Idealize.ShloMosaic.ValueIdx

/-- A [4096, 2048] array of extended reals: x, hx, cx and the two results. -/
abbrev Act : Type := (⟨2, ![4096, 2048]⟩ : Shape).Idx → EReal
/-- A [8192, 2048] weight matrix, one row per gate column. -/
abbrev Wt : Type := (⟨2, ![8192, 2048]⟩ : Shape).Idx → EReal
/-- A [8192] bias vector, one entry per gate column. -/
abbrev Bias : Type := (⟨1, ![8192]⟩ : Shape).Idx → EReal

/-- The pre-activation of gate column `n` for batch row `i`: row `i` of x against row `n` of w_ih, row `i` of hx against
    row `n` of w_hh, and the two biases' sum. -/
def pre (x hx : Act) (wih whh : Wt) (bih bhh : Bias) (i : Fin 4096) (n : Fin 8192) : EReal :=
  (∑ l : Fin 2048, x (ix2 i l) * wih (ix2 n l)) + (∑ l : Fin 2048, hx (ix2 i l) * whh (ix2 n l))
    + (bih (ix1 n) + bhh (ix1 n))

/-- Gate `g`'s column for hidden unit `j`: the gates are laid out gate-major, 2048 columns each. -/
def gcol (g : Fin 4) (j : Fin 2048) : Fin 8192 := ⟨g.val * 2048 + j.val, by have := g.isLt; have := j.isLt; omega⟩

/-- The new cell state at row `i`, unit `j`: forget gate times old state plus input gate times candidate. -/
def cellAt (x hx cx : Act) (wih whh : Wt) (bih bhh : Bias) (i : Fin 4096) (j : Fin 2048) : EReal :=
  Ideal.logistic (pre x hx wih whh bih bhh i (gcol 1 j)) * cx (ix2 i j)
    + Ideal.logistic (pre x hx wih whh bih bhh i (gcol 0 j)) * Ideal.tanh (pre x hx wih whh bih bhh i (gcol 2 j))

/-- The new hidden state at row `i`, unit `j`: output gate times tanh of the new cell state. -/
def hiddenAt (x hx cx : Act) (wih whh : Wt) (bih bhh : Bias) (i : Fin 4096) (j : Fin 2048) : EReal :=
  Ideal.logistic (pre x hx wih whh bih bhh i (gcol 3 j)) * Ideal.tanh (cellAt x hx cx wih whh bih bhh i j)

/-- The new cell state as an array. -/
def cell (x hx cx : Act) (wih whh : Wt) (bih bhh : Bias) : Act := fun i => cellAt x hx cx wih whh bih bhh (i 0) (i 1)

/-- The new hidden state as an array. -/
def hidden (x hx cx : Act) (wih whh : Wt) (bih bhh : Bias) : Act := fun i => hiddenAt x hx cx wih whh bih bhh (i 0) (i 1)

end Cert.LstmSpec

end
-- ==== Proof.BlockMath.lean ====
/-
  One block of the kernel's results is the matching block of the LSTM cell of `LstmSpec`.

  Grid point (q, p) works on batch rows p·512 … p·512 + 511 and hidden units q·256 … q·256 + 255. Its x and hx blocks
  are those rows; its weight blocks hold, for each gate g, rows g·2048 + q·256 + jj of w_ih and w_hh; its bias block
  holds the summed bias at those columns; its cx block the old cell state at those rows and units. Column g·256 + jj of
  the body's [512, 1024] pre-activations is then `pre` at row p·512 + r, column g·2048 + q·256 + jj, and the four slices at
  column offsets 0, 256, 512 and 768 are the four gates.
-/
import proofs.«144795_j730144441065_1_alg».proof.Proof.Gen.KernelIdeal.Value
import proofs.«144795_j730144441065_1_alg».proof.Proof.KernelGates
import proofs.«144795_j730144441065_1_alg».proof.Proof.LstmSpec

noncomputable section

namespace Cert.BlockMath

open Cert.KernelIdeal Cert.KernelIdeal.Gen Cert.KernelIdeal.Value Idealize.ShloMosaic Idealize.ShloMosaic.ValueIdx
open Cert.LstmSpec Cert.KernelGates

/-- Batch row `r` of batch block `p`. -/
def grow (p : Fin 8) (r : Fin 512) : Fin 4096 := ⟨p.val * 512 + r.val, by have := p.isLt; have := r.isLt; omega⟩
/-- Hidden unit `jj` of unit block `q`. -/
def gunit (q : Fin 8) (jj : Fin 256) : Fin 2048 := ⟨q.val * 256 + jj.val, by have := q.isLt; have := jj.isLt; omega⟩

variable (P0 P1 : FVec Ideal S512x2048 .bf16) (P2 P3 : FVec Ideal S4x256x2048 .bf16) (P4 : FVec Ideal S4x256 .f32)
  (P5 : FVec Ideal S512x256 .f32)
variable (x hx cx : Act) (wih whh : Wt) (bih bhh : Bias) (p q : Fin 8)

/-- The six loaded blocks are the blocks of the argument arrays at batch block `p`, unit block `q`. -/
structure AtPoint : Prop where
  rows_x : ∀ (r : Fin 512) (l : Fin 2048), P0 (ix2 r l) = x (ix2 (grow p r) l)
  rows_hx : ∀ (r : Fin 512) (l : Fin 2048), P1 (ix2 r l) = hx (ix2 (grow p r) l)
  rows_wih : ∀ (g : Fin 4) (jj : Fin 256) (l : Fin 2048), P2 (ix3 g jj l) = wih (ix2 (gcol g (gunit q jj)) l)
  rows_whh : ∀ (g : Fin 4) (jj : Fin 256) (l : Fin 2048), P3 (ix3 g jj l) = whh (ix2 (gcol g (gunit q jj)) l)
  bias : ∀ (g : Fin 4) (jj : Fin 256), P4 (ix2 g jj) = bih (ix1 (gcol g (gunit q jj))) + bhh (ix1 (gcol g (gunit q jj)))
  old_cell : ∀ (r : Fin 512) (jj : Fin 256), P5 (ix2 r jj) = cx (ix2 (grow p r) (gunit q jj))

variable {P0 P1 P2 P3 P4 P5 x hx cx wih whh bih bhh p q}

/-- Column g·256 + jj of row r of the block's pre-activations is the cell's pre-activation there. -/
theorem preact_eq (H : AtPoint P0 P1 P2 P3 P4 P5 x hx cx wih whh bih bhh p q) (r : Fin 512) (g : Fin 4) (jj : Fin 256) :
    k0_pay1 (F := Ideal) P0 P1 P2 P3 P4 (ix2 r (wcol g jj)) = pre x hx wih whh bih bhh (grow p r) (gcol g (gunit q jj)) := by
  rw [preact_apply]
  unfold pre
  simp only [H.rows_x, H.rows_hx, H.rows_wih, H.rows_whh, H.bias]

/-- The block the body leaves for the new cell state. -/
theorem cell_block (H : AtPoint P0 P1 P2 P3 P4 P5 x hx cx wih whh bih bhh p q) (r : Fin 512) (jj : Fin 256) :
    E7 (F := Ideal) P0 P1 P2 P3 P4 P5 (ix2 r jj) = cellAt x hx cx wih whh bih bhh (grow p r) (gunit q jj) := by
  have i0 : ix7_0 (ix2 r jj) = ix2 r (wcol 1 jj) := funext fun a => Fin.ext (by
    match a with
    | ⟨0, _⟩ => rfl
    | ⟨1, _⟩ => show jj.val + 256 = 1 * 256 + jj.val; omega)
  have i1 : ix7_1 (ix2 r jj) = ix2 r jj := funext fun a => Fin.ext (by
    match a with
    | ⟨0, _⟩ => rfl
    | ⟨1, _⟩ => rfl)
  have i2 : ix7_2 (ix2 r jj) = ix2 r (wcol 0 jj) := funext fun a => Fin.ext (by
    match a with
    | ⟨0, _⟩ => rfl
    | ⟨1, _⟩ => show jj.val = 0 * 256 + jj.val; omega)
  have i3 : ix7_3 (ix2 r jj) = ix2 r (wcol 2 jj) := funext fun a => Fin.ext (by
    match a with
    | ⟨0, _⟩ => rfl
    | ⟨1, _⟩ => show jj.val + 512 = 2 * 256 + jj.val; omega)
  show Ideal.logistic (k0_pay1 (F := Ideal) P0 P1 P2 P3 P4 (ix7_0 (ix2 r jj))) * P5 (ix7_1 (ix2 r jj))
      + Ideal.logistic (k0_pay1 (F := Ideal) P0 P1 P2 P3 P4 (ix7_2 (ix2 r jj)))
        * Ideal.tanh (k0_pay1 (F := Ideal) P0 P1 P2 P3 P4 (ix7_3 (ix2 r jj))) = _
  rw [i0, i1, i2, i3, preact_eq H, preact_eq H, preact_eq H, H.old_cell]
  rfl

/-- The block the body leaves for the new hidden state. -/
theorem hidden_block (H : AtPoint P0 P1 P2 P3 P4 P5 x hx cx wih whh bih bhh p q) (r : Fin 512) (jj : Fin 256) :
    E6 (F := Ideal) P0 P1 P2 P3 P4 P5 (ix2 r jj) = hiddenAt x hx cx wih whh bih bhh (grow p r) (gunit q jj) := by
  have i0 : ix6_0 (ix2 r jj) = ix2 r (wcol 3 jj) := funext fun a => Fin.ext (by
    match a with
    | ⟨0, _⟩ => rfl
    | ⟨1, _⟩ => show jj.val + 768 = 3 * 256 + jj.val; omega)
  have i1 : ix6_1 (ix2 r jj) = ix2 r (wcol 1 jj) := funext fun a => Fin.ext (by
    match a with
    | ⟨0, _⟩ => rfl
    | ⟨1, _⟩ => show jj.val + 256 = 1 * 256 + jj.val; omega)
  have i2 : ix6_2 (ix2 r jj) = ix2 r jj := funext fun a => Fin.ext (by
    match a with
    | ⟨0, _⟩ => rfl
    | ⟨1, _⟩ => rfl)
  have i3 : ix6_3 (ix2 r jj) = ix2 r (wcol 0 jj) := funext fun a => Fin.ext (by
    match a with
    | ⟨0, _⟩ => rfl
    | ⟨1, _⟩ => show jj.val = 0 * 256 + jj.val; omega)
  have i4 : ix6_4 (ix2 r jj) = ix2 r (wcol 2 jj) := funext fun a => Fin.ext (by
    match a with
    | ⟨0, _⟩ => rfl
    | ⟨1, _⟩ => show jj.val + 512 = 2 * 256 + jj.val; omega)
  show Ideal.logistic (k0_pay1 (F := Ideal) P0 P1 P2 P3 P4 (ix6_0 (ix2 r jj)))
      * Ideal.tanh (Ideal.logistic (k0_pay1 (F := Ideal) P0 P1 P2 P3 P4 (ix6_1 (ix2 r jj))) * P5 (ix6_2 (ix2 r jj))
        + Ideal.logistic (k0_pay1 (F := Ideal) P0 P1 P2 P3 P4 (ix6_3 (ix2 r jj)))
          * Ideal.tanh (k0_pay1 (F := Ideal) P0 P1 P2 P3 P4 (ix6_4 (ix2 r jj)))) = _
  rw [i0, i1, i2, i3, i4, preact_eq H, preact_eq H, preact_eq H, preact_eq H, H.old_cell]
  rfl

end Cert.BlockMath

end
-- ==== Proof.KernelArrays.lean ====
/-
  The two result arrays after the kernel's run are the LSTM cell of `LstmSpec` of the argument arrays.

  The grid is 8 × 8: point t has a unit block q (the slow axis) and a batch block p (the fast axis), and writes block
  (p, q) of both [4096, 2048] results, 512 rows by 256 units. Its x and hx blocks follow p, its weight and bias blocks
  follow q, its cx block follows both; the weight matrices reach the region viewed as [4, 2048, 2048] and the summed bias
  as [4, 2048], so block (·, q) of a view holds, for each gate g, rows g·2048 + q·256 + jj. With the loaded blocks
  identified, `BlockMath` says that what the point writes back is block (p, q) of the cell's results, and the 64 blocks
  tile the arrays.
-/
import proofs.«144795_j730144441065_1_alg».proof.Proof.Gen.KernelIdeal.Value
import proofs.«144795_j730144441065_1_alg».proof.Proof.HostPrefix
import proofs.«144795_j730144441065_1_alg».proof.Proof.BlockMath
import Idealize.ShloMosaic.Lib.Pipeline.Value

noncomputable section

namespace Cert.KernelArrays

open Cert.KernelIdeal Cert.KernelIdeal.Gen Idealize.ShloMosaic Idealize.ShloMosaic.TcCoe Idealize.SL.Sem
open Idealize.ShloMosaic.Pipeline (Dat)
open Idealize.ShloMosaic.ValueIdx Cert.LstmSpec Cert.BlockMath Cert.HostPrefix Cert.KernelGates

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The grid -/

/-- The printed index maps over the 64 grid points: the output blocks are indexed (batch block, unit block), both below 8;
    x and hx follow the batch block, the weights and the bias the unit block, cx and both outputs both. -/
theorem idx_facts : ∀ t : Fin cfg0.N,
    win0_6.index t (0 : Fin 2) ≤ 7 ∧ win0_6.index t (1 : Fin 2) ≤ 7
    ∧ win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = win0_6.index t (1 : Fin 2)
    ∧ win0_3.index t (0 : Fin 3) = 0 ∧ win0_3.index t (1 : Fin 3) = win0_6.index t (1 : Fin 2) ∧ win0_3.index t (2 : Fin 3) = 0
    ∧ win0_4.index t (0 : Fin 3) = 0 ∧ win0_4.index t (1 : Fin 3) = win0_6.index t (1 : Fin 2) ∧ win0_4.index t (2 : Fin 3) = 0
    ∧ win0_5.index t (0 : Fin 2) = 0 ∧ win0_5.index t (1 : Fin 2) = win0_6.index t (1 : Fin 2)
    ∧ win0_7.index t (0 : Fin 2) = win0_6.index t (0 : Fin 2) ∧ win0_7.index t (1 : Fin 2) = win0_6.index t (1 : Fin 2) :=
  (by decide +kernel : ∀ t : Fin grid0.N, _)

/-- Every (batch block, unit block) pair is some point's. -/
theorem idx_onto : ∀ (p q : Fin 8), ∃ t : Fin cfg0.N, win0_6.index t = ![p.val, q.val] :=
  (by decide +kernel : ∀ (p q : Fin 8), ∃ t : Fin grid0.N, win0_6.index t = ![p.val, q.val])

/-- The batch block of point `t`. -/
def pOf (t : Fin cfg0.N) : Fin 8 := ⟨win0_6.index t (0 : Fin 2), by have := (idx_facts t).1; omega⟩
/-- The unit block of point `t`. -/
def qOf (t : Fin cfg0.N) : Fin 8 := ⟨win0_6.index t (1 : Fin 2), by have := (idx_facts t).2.1; omega⟩

/-! ## The weight and bias views read at an entry -/

/-- A [8192, 2048] matrix viewed as [4, 2048, 2048]: entry (g, u, l) is entry (g·2048 + u, l). -/
theorem weights_view_apply (W : FVec Ideal S8192x2048 .f32) (g : Fin 4) (u : Fin 2048) (l : Fin 2048) :
    shapeCast S4x2048x2048 W shapeCasts_S8192x2048_S4x2048x2048 (ix3 g u l) = W (ix2 (gcol g u) l) := by
  refine shapeCast_apply W shapeCasts_S8192x2048_S4x2048x2048 (ix3 g u l) (ix2 (gcol g u) l) ?_
  rw [Shape.rowMajor_val_two, Shape.rowMajor_val_three]
  show (g.val * 2048 + u.val) * 2048 + l.val = (g.val * 2048 + u.val) * 2048 + l.val
  rfl

/-- A [8192] vector viewed as [4, 2048]: entry (g, u) is entry g·2048 + u. -/
theorem bias_view_apply (b : FVec Ideal S8192 .f32) (g : Fin 4) (u : Fin 2048) :
    shapeCast S4x2048 b shapeCasts_S8192_S4x2048 (ix2 g u) = b (ix1 (gcol g u)) := by
  refine shapeCast_apply b shapeCasts_S8192_S4x2048 (ix2 g u) (ix1 (gcol g u)) ?_
  rw [Shape.rowMajor_val_one, Shape.rowMajor_val_two]
  show g.val * 2048 + u.val = g.val * 2048 + u.val
  rfl

/-! ## The loaded blocks at a point -/

/-- The x block at point `t` holds batch rows p·512 + r. -/
theorem blk_x (c : Dev nD) (t : Fin cfg0.N) (r : Fin 512) (l : Fin 2048) :
    View.ld (iblk m c 0 t) r0_0 (ix2 r l) = m ((c : Thread nD τ).loc main_arg0) (ix2 (grow (pOf t) r) l) := by
  rw [View.ld_unit_zero (S := S512x2048) hz2]
  show V m c main_v0 (((cfg0.win 0).blk t).view.emb (ix2 r l)) = _
  refine (congrFun (V_x m c) _).trans (congrArg _ ?_)
  obtain ⟨-, -, e0, e1, -⟩ := idx_facts t
  funext a; apply Fin.ext
  match a with
  | ⟨0, _⟩ => show win0_0.index t (0 : Fin 2) * 512 + 1 * r.val = win0_6.index t (0 : Fin 2) * 512 + r.val; omega
  | ⟨1, _⟩ => show win0_0.index t (1 : Fin 2) * 2048 + 1 * l.val = l.val; omega

/-- The hx block at point `t` holds batch rows p·512 + r. -/
theorem blk_hx (c : Dev nD) (t : Fin cfg0.N) (r : Fin 512) (l : Fin 2048) :
    View.ld (iblk m c 1 t) r0_0 (ix2 r l) = m ((c : Thread nD τ).loc main_arg1) (ix2 (grow (pOf t) r) l) := by
  rw [View.ld_unit_zero (S := S512x2048) hz2]
  show V m c main_v1 (((cfg0.win 1).blk t).view.emb (ix2 r l)) = _
  refine (congrFun (V_hx m c) _).trans (congrArg _ ?_)
  obtain ⟨-, -, -, -, e0, e1, -⟩ := idx_facts t
  funext a; apply Fin.ext
  match a with
  | ⟨0, _⟩ => show win0_1.index t (0 : Fin 2) * 512 + 1 * r.val = win0_6.index t (0 : Fin 2) * 512 + r.val; omega
  | ⟨1, _⟩ => show win0_1.index t (1 : Fin 2) * 2048 + 1 * l.val = l.val; omega

/-- The cx block at point `t` holds rows p·512 + r, units q·256 + jj. -/
theorem blk_cx (c : Dev nD) (t : Fin cfg0.N) (r : Fin 512) (jj : Fin 256) :
    View.ld (iblk m c 2 t) r0_3 (ix2 r jj) = m ((c : Thread nD τ).loc main_arg2) (ix2 (grow (pOf t) r) (gunit (qOf t) jj)) := by
  rw [View.ld_unit_zero (S := S512x256) hz2]
  show V m c main_arg2 (((cfg0.win 2).blk t).view.emb (ix2 r jj)) = _
  refine (congrFun (V_main_arg2 m c) _).trans (congrArg _ ?_)
  obtain ⟨-, -, -, -, -, -, e0, e1, -⟩ := idx_facts t
  funext a; apply Fin.ext
  match a with
  | ⟨0, _⟩ => show win0_2.index t (0 : Fin 2) * 512 + 1 * r.val = win0_6.index t (0 : Fin 2) * 512 + r.val; omega
  | ⟨1, _⟩ => show win0_2.index t (1 : Fin 2) * 256 + 1 * jj.val = win0_6.index t (1 : Fin 2) * 256 + jj.val; omega

/-- The w_ih block at point `t` holds, for each gate g, rows g·2048 + q·256 + jj. -/
theorem blk_wih (c : Dev nD) (t : Fin cfg0.N) (g : Fin 4) (jj : Fin 256) (l : Fin 2048) :
    View.ld (iblk m c 3 t) r0_1 (ix3 g jj l) = m ((c : Thread nD τ).loc main_arg3) (ix2 (gcol g (gunit (qOf t) jj)) l) := by
  rw [View.ld_unit_zero (S := S4x256x2048) hz3]
  show V m c main_v3 (((cfg0.win 3).blk t).view.emb (ix3 g jj l)) = _
  refine (congrFun (V_wih m c) _).trans ?_
  refine Eq.trans (congrArg _ ?_) (weights_view_apply _ g (gunit (qOf t) jj) l)
  obtain ⟨-, -, -, -, -, -, -, -, e0, e1, e2, -⟩ := idx_facts t
  funext a; apply Fin.ext
  match a with
  | ⟨0, _⟩ => show win0_3.index t (0 : Fin 3) * 4 + 1 * g.val = g.val; omega
  | ⟨1, _⟩ => show win0_3.index t (1 : Fin 3) * 256 + 1 * jj.val = win0_6.index t (1 : Fin 2) * 256 + jj.val; omega
  | ⟨2, _⟩ => show win0_3.index t (2 : Fin 3) * 2048 + 1 * l.val = l.val; omega

/-- The w_hh block at point `t` holds, for each gate g, rows g·2048 + q·256 + jj. -/
theorem blk_whh (c : Dev nD) (t : Fin cfg0.N) (g : Fin 4) (jj : Fin 256) (l : Fin 2048) :
    View.ld (iblk m c 4 t) r0_1 (ix3 g jj l) = m ((c : Thread nD τ).loc main_arg4) (ix2 (gcol g (gunit (qOf t) jj)) l) := by
  rw [View.ld_unit_zero (S := S4x256x2048) hz3]
  show V m c main_v5 (((cfg0.win 4).blk t).view.emb (ix3 g jj l)) = _
  refine (congrFun (V_whh m c) _).trans ?_
  refine Eq.trans (congrArg _ ?_) (weights_view_apply _ g (gunit (qOf t) jj) l)
  obtain ⟨-, -, -, -, -, -, -, -, -, -, -, e0, e1, e2, -⟩ := idx_facts t
  funext a; apply Fin.ext
  match a with
  | ⟨0, _⟩ => show win0_4.index t (0 : Fin 3) * 4 + 1 * g.val = g.val; omega
  | ⟨1, _⟩ => show win0_4.index t (1 : Fin 3) * 256 + 1 * jj.val = win0_6.index t (1 : Fin 2) * 256 + jj.val; omega
  | ⟨2, _⟩ => show win0_4.index t (2 : Fin 3) * 2048 + 1 * l.val = l.val; omega

/-- A bias vector read at a gate column, as an extended real. -/
abbrev biasAt (b : Bias) (n : Fin 8192) : EReal := b (ix1 n)

/-- The bias block at point `t` holds, for each gate g, the summed bias at columns g·2048 + q·256 + jj. -/
theorem blk_bias (c : Dev nD) (t : Fin cfg0.N) (g : Fin 4) (jj : Fin 256) :
    View.ld (iblk m c 5 t) r0_2 (ix2 g jj)
      = biasAt (m ((c : Thread nD τ).loc main_arg5)) (gcol g (gunit (qOf t) jj))
        + biasAt (m ((c : Thread nD τ).loc main_arg6)) (gcol g (gunit (qOf t) jj)) := by
  rw [View.ld_unit_zero (S := S4x256) hz2]
  show V m c main_v7 (((cfg0.win 5).blk t).view.emb (ix2 g jj)) = _
  refine (congrFun (V_bias m c) _).trans ?_
  refine Eq.trans (congrArg _ ?_) (bias_view_apply _ g (gunit (qOf t) jj))
  obtain ⟨-, -, -, -, -, -, -, -, -, -, -, -, -, -, e0, e1, -⟩ := idx_facts t
  funext a; apply Fin.ext
  match a with
  | ⟨0, _⟩ => show win0_5.index t (0 : Fin 2) * 4 + 1 * g.val = g.val; omega
  | ⟨1, _⟩ => show win0_5.index t (1 : Fin 2) * 256 + 1 * jj.val = win0_6.index t (1 : Fin 2) * 256 + jj.val; omega

/-- The six loaded blocks at point `t` are the argument arrays' blocks at batch block p, unit block q. -/
theorem atPoint (c : Dev nD) (t : Fin cfg0.N) :
    AtPoint (View.ld (iblk m c 0 t) r0_0) (View.ld (iblk m c 1 t) r0_0) (View.ld (iblk m c 3 t) r0_1) (View.ld (iblk m c 4 t) r0_1) (View.ld (iblk m c 5 t) r0_2) (View.ld (iblk m c 2 t) r0_3)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (pOf t) (qOf t) :=
  ⟨blk_x m c t, blk_hx m c t, blk_wih m c t, blk_whh m c t, blk_bias m c t, blk_cx m c t⟩

/-! ## What a point writes back -/

/-- Entry (r, jj) of the hidden-state block of point `t` is entry (p·512 + r, q·256 + jj) of the array. -/
theorem emb_hidden (t : Fin cfg0.N) (r : Fin 512) (jj : Fin 256) :
    ((cfg0.win 6).blk t).view.emb (ix2 r jj) = ix2 (grow (pOf t) r) (gunit (qOf t) jj) := by
  funext a; apply Fin.ext
  match a with
  | ⟨0, _⟩ => show win0_6.index t (0 : Fin 2) * 512 + 1 * r.val = win0_6.index t (0 : Fin 2) * 512 + r.val; omega
  | ⟨1, _⟩ => show win0_6.index t (1 : Fin 2) * 256 + 1 * jj.val = win0_6.index t (1 : Fin 2) * 256 + jj.val; omega

/-- Entry (r, jj) of the cell-state block of point `t` is entry (p·512 + r, q·256 + jj) of the array. -/
theorem emb_cell (t : Fin cfg0.N) (r : Fin 512) (jj : Fin 256) :
    ((cfg0.win 7).blk t).view.emb (ix2 r jj) = ix2 (grow (pOf t) r) (gunit (qOf t) jj) := by
  obtain ⟨-, -, -, -, -, -, -, -, -, -, -, -, -, -, -, -, e0, e1⟩ := idx_facts t
  funext a; apply Fin.ext
  match a with
  | ⟨0, _⟩ => show win0_7.index t (0 : Fin 2) * 512 + 1 * r.val = win0_6.index t (0 : Fin 2) * 512 + r.val; omega
  | ⟨1, _⟩ => show win0_7.index t (1 : Fin 2) * 256 + 1 * jj.val = win0_6.index t (1 : Fin 2) * 256 + jj.val; omega

/-- Point `t` writes back block `t` of the new hidden state. -/
theorem hidden_flushed (c : Dev nD) (t : Fin cfg0.N) :
    (dats m 0 c).flushed 6 t = ((cfg0.win 6).blk t).view.read (Elt Ideal) (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed6]
  unfold out0_6
  funext y
  obtain ⟨r, jj, rfl⟩ : ∃ (r : Fin 512) (jj : Fin 256), y = ix2 r jj := ⟨y 0, y 1, eq_ix2 y⟩
  refine (Value.canon6_eq (F := Ideal) (View.ld (iblk m c 0 t) r0_0) (View.ld (iblk m c 1 t) r0_0) (View.ld (iblk m c 3 t) r0_1) (View.ld (iblk m c 4 t) r0_1) (View.ld (iblk m c 5 t) r0_2) (View.ld (iblk m c 2 t) r0_3) (ix2 r jj)).trans ?_
  refine (hidden_block (atPoint m c t) r jj).trans ?_
  show _ = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 6).blk t).view.emb (ix2 r jj))
  rw [emb_hidden]
  rfl

/-- Point `t` writes back block `t` of the new cell state. -/
theorem cell_flushed (c : Dev nD) (t : Fin cfg0.N) :
    (dats m 0 c).flushed 7 t = ((cfg0.win 7).blk t).view.read (Elt Ideal) (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  unfold out0_7
  funext y
  obtain ⟨r, jj, rfl⟩ : ∃ (r : Fin 512) (jj : Fin 256), y = ix2 r jj := ⟨y 0, y 1, eq_ix2 y⟩
  refine (Value.canon7_eq (F := Ideal) (View.ld (iblk m c 0 t) r0_0) (View.ld (iblk m c 1 t) r0_0) (View.ld (iblk m c 3 t) r0_1) (View.ld (iblk m c 4 t) r0_1) (View.ld (iblk m c 5 t) r0_2) (View.ld (iblk m c 2 t) r0_3) (ix2 r jj)).trans ?_
  refine (cell_block (atPoint m c t) r jj).trans ?_
  show _ = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 r jj))
  rw [emb_cell]
  rfl

/-! ## The blocks tile the arrays -/

/-- An index of the hidden-state array is in point `t`'s block iff each coordinate is in the block's range. -/
theorem mem_blk6 (t : Fin cfg0.N) (i : S4096x2048.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v8_0).slice (win0_6.rect t)).set ↔ _
  rw [View.set_slice_whole, Rect.mem_set_unit]
  exact Iff.rfl

/-- The same for the cell-state array. -/
theorem mem_blk7 (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v8_1).slice (win0_7.rect t)).set ↔ _
  rw [View.set_slice_whole, Rect.mem_set_unit]
  exact Iff.rfl

/-- Entry (i, j) lies in the block of the point with batch block i / 512 and unit block j / 256. -/
theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_6.index t (0 : Fin 2) = (i 0).val / 512 := congrFun ht 0
  have q1 : win0_6.index t (1 : Fin 2) = (i 1).val / 256 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_6.index t (0 : Fin 2) = (i 0).val / 512 := congrFun ht 0
  have q1 : win0_6.index t (1 : Fin 2) = (i 1).val / 256 := congrFun ht 1
  obtain ⟨-, -, -, -, -, -, -, -, -, -, -, -, -, -, -, -, e0, e1⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-! ## The arrays after the run -/

/-- The first result array after the run is the new hidden state. -/
theorem hidden_final (c : Dev nD) : (dats m 0 c).arrAt 6 cfg0.N = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 6 (hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => hidden_flushed m c t) cover6

/-- The second result array after the run is the new cell state. -/
theorem cell_final (c : Dev nD) : (dats m 0 c).arrAt 7 cfg0.N = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => cell_flushed m c t) cover7

/-- Every weakly fair execution of the idealized kernel program terminates with the two results at the LSTM cell of the
    arguments and the arguments unchanged. -/
theorem run : θ_run defs (onTc (τ := τ) (main (F := Ideal))) ⟨m, fun _ => 0, ρ⟩ fun r => ∀ c : Dev nD,
      r.2.mem ((c : Thread nD τ).loc main_v8_0) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v8_1) = cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (Value.run_blocks m ρ)

end Cert.KernelArrays

end
-- ==== Proof.RefIsSpec.lean ====
/-
  The reference computes the LSTM cell of `LstmSpec`, entry by entry.

  The reference forms the [4096, 8192] array of pre-activations in one piece — x times the transpose of w_ih, plus hx times
  the transpose of w_hh, plus the broadcast row b_ih + b_hh — and slices it into the four gates at column offsets 0, 2048,
  4096 and 6144. Read at (i, n), a product against a transposed matrix is the sum over l of x(i,l)·w(n,l), so the array
  is `pre i n`; a slice at offset g·2048 reads column g·2048 + j. The reference spells the logistic function as
  1 / (1 + exp(-z)), which at the ideal values is the logistic function itself.
-/
import proofs.«144795_j730144441065_1_alg».proof.Proof.Gen.ReferenceIdeal.Read
import proofs.«144795_j730144441065_1_alg».proof.Proof.LstmSpec
import Idealize.ShloMosaic.Lib.IdealHost

noncomputable section

namespace Cert.RefIsSpec

open Cert.ReferenceIdeal Cert.ReferenceIdeal.Read Idealize.ShloMosaic Idealize.ShloMosaic.ValueIdx Cert.LstmSpec

variable (x0 x1 x2 : Act) (x3 x4 : Wt) (x5 x6 : Bias)

/-- The left operand of either product is read along row `i`. -/
theorem lidx1 (i : Fin 4096) (n : Fin 8192) (k : Fin 2048) : lidx_main_v1 (ix2 i n) k = ix2 i k :=
  funext fun a => Fin.ext (by match a with | ⟨0, _⟩ => rfl | ⟨1, _⟩ => rfl)
theorem lidx3 (i : Fin 4096) (n : Fin 8192) (k : Fin 2048) : lidx_main_v3 (ix2 i n) k = ix2 i k :=
  funext fun a => Fin.ext (by match a with | ⟨0, _⟩ => rfl | ⟨1, _⟩ => rfl)
/-- The transposed weight matrix at (k, n) is the weight matrix at (n, k): row `n` is read along. -/
theorem ridx1 (i : Fin 4096) (n : Fin 8192) (k : Fin 2048) : idx_main_v0 (ridx_main_v1 (ix2 i n) k) = ix2 n k :=
  funext fun a => Fin.ext (by match a with | ⟨0, _⟩ => rfl | ⟨1, _⟩ => rfl)
theorem ridx3 (i : Fin 4096) (n : Fin 8192) (k : Fin 2048) : idx_main_v2 (ridx_main_v3 (ix2 i n) k) = ix2 n k :=
  funext fun a => Fin.ext (by match a with | ⟨0, _⟩ => rfl | ⟨1, _⟩ => rfl)
/-- The bias row broadcast over the batch is read at its column. -/
theorem bidx (i : Fin 4096) (n : Fin 8192) : idx_main_v6 (idx_main_v7 (ix2 i n)) = ix1 n :=
  funext fun a => Fin.ext (by match a with | ⟨0, _⟩ => rfl)

/-- The array of pre-activations at (i, n). -/
theorem gates_apply (i : Fin 4096) (n : Fin 8192) :
    val_main_v8 (F := Ideal) x0 x1 x3 x4 x5 x6 (ix2 i n) = pre x0 x1 x3 x4 x5 x6 i n := by
  rw [val_main_v8_apply, val_main_v4_apply, val_main_v1_apply, val_main_v3_apply, val_main_v7_apply, val_main_v6_apply,
    val_main_v5_apply]
  simp only [val_main_v0_apply, val_main_v2_apply, lidx1, lidx3, ridx1, ridx3, bidx, Ideal.addf_def]
  rfl

/-- The four slices read the gate columns. -/
theorem sl0 (r : Fin 4096) (j : Fin 2048) : idx_main_v9 (ix2 r j) = ix2 r (gcol 0 j) :=
  funext fun a => Fin.ext (by
    match a with
    | ⟨0, _⟩ => rfl
    | ⟨1, _⟩ => show j.val = 0 * 2048 + j.val; omega)
theorem sl1 (r : Fin 4096) (j : Fin 2048) : idx_main_v10 (ix2 r j) = ix2 r (gcol 1 j) :=
  funext fun a => Fin.ext (by
    match a with
    | ⟨0, _⟩ => rfl
    | ⟨1, _⟩ => show 2048 + j.val = 1 * 2048 + j.val; omega)
theorem sl2 (r : Fin 4096) (j : Fin 2048) : idx_main_v11 (ix2 r j) = ix2 r (gcol 2 j) :=
  funext fun a => Fin.ext (by
    match a with
    | ⟨0, _⟩ => rfl
    | ⟨1, _⟩ => show 4096 + j.val = 2 * 2048 + j.val; omega)
theorem sl3 (r : Fin 4096) (j : Fin 2048) : idx_main_v12 (ix2 r j) = ix2 r (gcol 3 j) :=
  funext fun a => Fin.ext (by
    match a with
    | ⟨0, _⟩ => rfl
    | ⟨1, _⟩ => show 6144 + j.val = 3 * 2048 + j.val; omega)

/-- The reference's spelling 1 / (1 + exp(-z)), with the literal one, is the logistic function. -/
theorem sigmoid_spelled (z : EReal) :
    Ideal.div (Ideal.ofBits .f32 0x3F800000#32) (Ideal.ofBits .f32 0x3F800000#32 + Ideal.exp (-z)) = Ideal.logistic z := by
  rw [Ideal.ofBits_one_f32]; rfl

/-- The reference's second result is the new cell state. -/
theorem cell_eq : val_main_v34 (F := Ideal) x0 x1 x2 x3 x4 x5 x6 = cell x0 x1 x2 x3 x4 x5 x6 := by
  funext i
  obtain ⟨r, j, rfl⟩ : ∃ (r : Fin 4096) (j : Fin 2048), i = ix2 r j := ⟨i 0, i 1, eq_ix2 i⟩
  simp only [val_main_v34_apply, val_main_v32_apply, val_main_v33_apply, val_main_v24_apply, val_main_v23_apply,
    val_main_cst_2_apply, val_main_v22_apply, val_main_v21_apply, val_main_cst_1_apply, val_main_v20_apply,
    val_main_v19_apply, val_main_v10_apply, val_main_v18_apply, val_main_v17_apply, val_main_cst_0_apply,
    val_main_v16_apply, val_main_v15_apply, val_main_cst_apply, val_main_v14_apply, val_main_v13_apply,
    val_main_v9_apply, val_main_v25_apply, val_main_v11_apply, sl0, sl1, sl2, gates_apply,
    Ideal.addf_def, Ideal.mulf_def, Ideal.hostDivf_def, Ideal.hostUnary_exp_def, Ideal.hostUnary_tanh_def,
    Ideal.hostNegf_def, Ideal.negf_def, Ideal.ofBits_def, sigmoid_spelled]
  rfl

/-- The reference's first result is the new hidden state. -/
theorem hidden_eq : val_main_v36 (F := Ideal) x0 x1 x2 x3 x4 x5 x6 = hidden x0 x1 x2 x3 x4 x5 x6 := by
  funext i
  obtain ⟨r, j, rfl⟩ : ∃ (r : Fin 4096) (j : Fin 2048), i = ix2 r j := ⟨i 0, i 1, eq_ix2 i⟩
  rw [val_main_v36_apply, val_main_v35_apply, cell_eq]
  simp only [val_main_v31_apply, val_main_v30_apply, val_main_cst_4_apply, val_main_v29_apply, val_main_v28_apply,
    val_main_cst_3_apply, val_main_v27_apply, val_main_v26_apply, val_main_v12_apply, sl3, gates_apply,
    Ideal.addf_def, Ideal.mulf_def, Ideal.hostDivf_def, Ideal.hostUnary_exp_def, Ideal.hostUnary_tanh_def,
    Ideal.hostNegf_def, Ideal.negf_def, Ideal.ofBits_def, sigmoid_spelled]
  rfl

end Cert.RefIsSpec

end
-- ==== Proof.lean ====
/-
  An LSTM cell: the kernel against its jnp reference, over the extended reals.

  Both programs compute, from x, hx, cx : [4096, 2048], w_ih, w_hh : [8192, 2048] and b_ih, b_hh : [8192], the
  pre-activations pre(i, n) = Σ_l x(i,l)·w_ih(n,l) + Σ_l hx(i,l)·w_hh(n,l) + (b_ih(n) + b_hh(n)), the four gates of unit j at
  the columns g·2048 + j, the new cell state cy = σ(forget)·cx + σ(input)·tanh(candidate) and the new hidden state
  hy = σ(output)·tanh(cy) (`LstmSpec`). The reference forms all 8192 columns at once and slices them; the kernel works
  block by block on an 8 × 8 grid, 512 batch rows by 256 units at a time, on weights it has first narrowed to bf16 and
  viewed gate-major. At the ideal values narrowing is the identity, a product into a zero accumulator is the plain sum,
  and the logistic function is 1 / (1 + exp(-z)) however it is spelled, so both results are the same function of the
  arguments (`KernelArrays.run`, `RefIsSpec`); no step uses that the inputs are finite. The kernel's idealization rewrote
  nothing, so there is nothing to preserve.
-/
import proofs.«144795_j730144441065_1_alg».proof.Defs
import proofs.«144795_j730144441065_1_alg».proof.Proof.Gen.Kernel
import proofs.«144795_j730144441065_1_alg».proof.Proof.Gen.Kernel.Skeleton
import proofs.«144795_j730144441065_1_alg».proof.Proof.Gen.Kernel.Launch
import proofs.«144795_j730144441065_1_alg».proof.Proof.Gen.Kernel.Points
import proofs.«144795_j730144441065_1_alg».proof.Proof.Gen.Kernel.Frame
import proofs.«144795_j730144441065_1_alg».proof.Proof.Gen.KernelIdeal
import proofs.«144795_j730144441065_1_alg».proof.Proof.Gen.KernelIdeal.Skeleton
import proofs.«144795_j730144441065_1_alg».proof.Proof.Gen.KernelIdeal.Launch
import proofs.«144795_j730144441065_1_alg».proof.Proof.Gen.KernelIdeal.Points
import proofs.«144795_j730144441065_1_alg».proof.Proof.Gen.KernelIdeal.Frame
import proofs.«144795_j730144441065_1_alg».proof.Proof.Gen.KernelIdeal.Value
import proofs.«144795_j730144441065_1_alg».proof.Proof.Gen.ReferenceIdeal
import proofs.«144795_j730144441065_1_alg».proof.Proof.Gen.ReferenceIdeal.Run
import proofs.«144795_j730144441065_1_alg».proof.Proof.Gen.ReferenceIdeal.Read
import proofs.«144795_j730144441065_1_alg».proof.Proof.Gen.Pre_finite_inputs
import proofs.«144795_j730144441065_1_alg».proof.Proof.KernelArrays
import proofs.«144795_j730144441065_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments as they were: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the seven arguments both programs end with the new hidden state and the new cell state
    of the LSTM cell of those arguments. -/
theorem algebraic : Cert.algebraic_KernelIdeal_ReferenceIdeal := by
  intro m ρ m' ρ' _ hagree
  refine ⟨_, _, Cert.KernelArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v36_eq, Cert.RefIsSpec.hidden_eq, (hagree c).1, (hagree c).2.1, (hagree c).2.2.1,
      (hagree c).2.2.2.1, (hagree c).2.2.2.2.1, (hagree c).2.2.2.2.2.1, (hagree c).2.2.2.2.2.2]
  · rw [Cert.ReferenceIdeal.Read.val_main_v34_eq, Cert.RefIsSpec.cell_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
